-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x16x2048x2048 : Shape := ⟨4, ![2, 16, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x16x2048x2048 1) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .i1⟩
  | .hbm, ⟨4, _⟩ => ⟨S2x16x2048x2048, .i32⟩
  | .hbm, ⟨5, _⟩ => ⟨S2x16x2048x2048, .f32⟩
  | .hbm, ⟨6, _⟩ => ⟨S2x16x2048x64, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x2048, .i32⟩
  | .local _ .vmem, ⟨7, _⟩ => ⟨S1x1x512x2048, .i32⟩
  | .local _ .vmem, ⟨8, _⟩ => ⟨S1x1x512x2048, .f32⟩
  | .local _ .vmem, ⟨9, _⟩ => ⟨S1x1x512x2048, .f32⟩
  | .local _ .vmem, ⟨10, _⟩ => ⟨S1x1x512x64, .f32⟩
  | .local _ .vmem, ⟨11, _⟩ => ⟨S1x1x512x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  natLt_1_32 : 1 < 32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S2x16x2048x2048.size a
  hwx0_3 : ∀ i : grid0.Coords, EltTy.bits .i32 = 32 ∨ (Rect.block (s := S2x16x2048x2048) S1x1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x2048.size a ≤ S2x16x2048x2048.size a
  hwx0_4 : ∀ i : grid0.Coords, EltTy.bits .f32 = 32 ∨ (Rect.block (s := S2x16x2048x2048) S1x1x512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x64.size a ≤ S2x16x2048x64.size a
  hwx0_5 : ∀ i : grid0.Coords, EltTy.bits .f32 = 32 ∨ (Rect.block (s := S2x16x2048x64) S1x1x512x64.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1x512x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1x512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .i1⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S_, .f32⟩
  | .hbm, ⟨9, _⟩ => ⟨S2x16x2048x2048, .f32⟩
  | .hbm, ⟨10, _⟩ => ⟨S2x16x2048x2048, .f32⟩
  | .hbm, ⟨11, _⟩ => ⟨S_, .f32⟩
  | .hbm, ⟨12, _⟩ => ⟨S2x16x2048, .f32⟩
  | .hbm, ⟨13, _⟩ => ⟨S_, .f32⟩
  | .hbm, ⟨14, _⟩ => ⟨S2x16x2048, .f32⟩
  | .hbm, ⟨15, _⟩ => ⟨S2x16x2048, .f32⟩
  | .hbm, ⟨16, _⟩ => ⟨S2x16x2048x1, .f32⟩
  | .hbm, ⟨17, _⟩ => ⟨S2x16x2048x2048, .f32⟩
  | .hbm, ⟨18, _⟩ => ⟨S2x16x2048x2048, .f32⟩
  | .hbm, ⟨19, _⟩ => ⟨S2x16x2048x2048, .f32⟩
  | .hbm, ⟨20, _⟩ => ⟨S_, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Softmax.lean ====
/-
  Masked scaled-dot-product attention, as functions of the argument arrays read index by index on the extended reals.
  For batch b, head h, query row i and key row j (2 × 16 × 2048 × 2048 of them, feature width 64):
    score  = the fill value where the mask bit is set, else (∑_d q[b,h,i,d] · k[b,h,j,d]) · scale
    rowMax = the maximum over j of score, started from the maximum's neutral pattern
    weight = exp (score − rowMax)
    rowSum = ∑_j weight
    attn   = weight / rowSum                          (the first result)
    ctx    = ∑_j attn[b,h,i,j] · v[b,h,j,d]           (the second result)
  The float patterns (fill, scale, the maximum's start) are kept as patterns: both programs carry the same words, so no
  pattern is ever evaluated.  One fact about the maximum is recorded here: taking the maximum once more with its own
  starting value changes nothing, whatever that value is.
-/
import Idealize.ShloMosaic.PureOps.Ideal
import Idealize.ShloMosaic.PureOps.Ideal.Laws
import Idealize.ShloMosaic.Lib.ValueIdx
import Mathlib.Data.Finset.Fold

noncomputable section

open scoped BigOperators
open Idealize.ShloMosaic Idealize.ShloMosaic.ValueIdx

namespace Cert.Softmax

/-- The shape of q, k, v and of the context result. -/
abbrev QKV : Shape := ⟨4, ![2, 16, 2048, 64]⟩
/-- The shape of the mask and of the attention-probability result. -/
abbrev SS : Shape := ⟨4, ![2, 16, 2048, 2048]⟩

/-- The masked, scaled score of query row `x 2` against key row `x 3`. -/
def score (q k : QKV.Idx → EReal) (mk : SS.Idx → BitVec 1) (x : SS.Idx) : EReal :=
  Scalar.select (mk x) (Ideal.ofBits .f32 0xCE6E6B28#32)
    ((∑ d : Fin 64, q (ix4 (x 0) (x 1) (x 2) d) * k (ix4 (x 0) (x 1) (x 3) d)) * Ideal.ofBits .f32 0x3E000000#32)

/-- A query row's largest score. -/
def rowMax (q k : QKV.Idx → EReal) (mk : SS.Idx → BitVec 1) (b : Fin 2) (h : Fin 16) (i : Fin 2048) : EReal :=
  (Finset.univ : Finset (Fin 2048)).fold max (Ideal.ofBits .f32 0xFF800000#32) (fun j => score q k mk (ix4 b h i j))

/-- The unnormalized weight. -/
def weight (q k : QKV.Idx → EReal) (mk : SS.Idx → BitVec 1) (x : SS.Idx) : EReal :=
  Ideal.exp (score q k mk x - rowMax q k mk (x 0) (x 1) (x 2))

/-- A query row's normalizer. -/
def rowSum (q k : QKV.Idx → EReal) (mk : SS.Idx → BitVec 1) (b : Fin 2) (h : Fin 16) (i : Fin 2048) : EReal :=
  ∑ j : Fin 2048, weight q k mk (ix4 b h i j)

/-- The attention probabilities. -/
def attn (q k : QKV.Idx → EReal) (mk : SS.Idx → BitVec 1) : SS.Idx → EReal :=
  fun x => Ideal.div (weight q k mk x) (rowSum q k mk (x 0) (x 1) (x 2))

/-- The context: each query row's probabilities applied to the value rows. -/
def ctx (q k v : QKV.Idx → EReal) (mk : SS.Idx → BitVec 1) : QKV.Idx → EReal :=
  fun x => ∑ j : Fin 2048, attn q k mk (ix4 (x 0) (x 1) (x 2) j) * v (ix4 (x 0) (x 1) j (x 3))

/-- A fold of `max` is at least its starting value, so one more `max` with that value is absorbed. -/
theorem max_init_fold {ι : Type} (s : Finset ι) (a : EReal) (f : ι → EReal) : max a (s.fold max a f) = s.fold max a f :=
  max_eq_right ((Finset.le_fold_max a).mpr (Or.inl le_rfl))

end Cert.Softmax

end
-- ==== Proof.RefSoftmax.lean ====
/-
  The reference program's stages, read index by index on the extended reals, are the attention functions of
  Softmax.lean.  Each stage is read one operation at a time; the row maximum is a fold of `max` over the key axis
  started from the maximum's neutral pattern, and the reference's extra `maximum` with that same pattern is absorbed
  by the fold; the row sum starts from the zero pattern, which is the extended real 0.
-/
import proofs.«400006_j15788299780316_3_alg».proof.Proof.Gen.ReferenceIdeal.Read
import proofs.«400006_j15788299780316_3_alg».proof.Proof.Softmax

noncomputable section

open scoped BigOperators

namespace Cert.ReferenceIdeal.RefSoftmax

open Cert.ReferenceIdeal Cert.ReferenceIdeal.Gen Cert.ReferenceIdeal.Read Idealize.ShloMosaic Idealize.ShloMosaic.ValueIdx Cert.Softmax

variable (x0 x1 x2 : (⟨S2x16x2048x64, .f32⟩ : BufTy).Contents (Elt Ideal)) (x3 : (⟨S2x16x2048x2048, .i1⟩ : BufTy).Contents (Elt Ideal))

/-- The query row of a score's index with feature `d`. -/
theorem qrow (i : S2x16x2048x2048.Idx) (d : Fin 64) : lidx_main_v0 i d = ix4 (i 0) (i 1) (i 2) d :=
  funext fun a => by match a with | ⟨0, _⟩ => rfl | ⟨1, _⟩ => rfl | ⟨2, _⟩ => rfl | ⟨3, _⟩ => rfl

/-- The key row of a score's index with feature `d`. -/
theorem krow (i : S2x16x2048x2048.Idx) (d : Fin 64) : ridx_main_v0 i d = ix4 (i 0) (i 1) (i 3) d :=
  funext fun a => by match a with | ⟨0, _⟩ => rfl | ⟨1, _⟩ => rfl | ⟨2, _⟩ => rfl | ⟨3, _⟩ => rfl

/-- The masked, scaled product is `score`. -/
theorem score_eq (i : S2x16x2048x2048.Idx) : val_main_v3 (F := Ideal) x0 x1 x3 i = score x0 x1 x3 i := by
  rw [val_main_v3_apply, val_main_call0_v0_apply, val_main_cst_0_apply, val_main_v2_apply, val_main_v0_apply,
    val_main_v1_apply, val_main_cst_apply]
  simp only [qrow, krow]
  rfl

/-- The reduced maximum, and the extra maximum with the start value after it, are `rowMax`. -/
theorem rowMax_eq (j : S2x16x2048.Idx) : val_main_v6 (F := Ideal) x0 x1 x3 j = rowMax x0 x1 x3 (j 0) (j 1) (j 2) := by
  rw [val_main_v6_apply, val_main_v5_apply, val_main_cst_2_apply]
  unfold val_main_v4
  rw [Host.reduce_eq_fold_single FloatOps.maximumf _ _ reducesTo_S2x16x2048x2048_S2x16x2048_d3 (by decide) h_S_ j]
  have e : (val_main_v3 (F := Ideal) x0 x1 x3 ∘ (by decide : S2x16x2048x2048.Reduces [3] S2x16x2048).lift j)
      = fun k : Fin 2048 => score x0 x1 x3 (ix4 (j 0) (j 1) (j 2) k) := funext fun k => by
    show val_main_v3 (F := Ideal) x0 x1 x3 _ = _
    rw [score_eq]
    exact congrArg (score x0 x1 x3) (funext fun a => Fin.ext (by
      match a with | ⟨0, _⟩ => rfl | ⟨1, _⟩ => rfl | ⟨2, _⟩ => rfl | ⟨3, _⟩ => rfl))
  rw [e]
  exact max_init_fold _ _ _

/-- The exponential of the score less its row's maximum is `weight`. -/
theorem weight_eq (i : S2x16x2048x2048.Idx) : val_main_v10 (F := Ideal) x0 x1 x3 i = weight x0 x1 x3 i := by
  rw [val_main_v10_apply, val_main_v9_apply, val_main_v8_apply, val_main_v7_apply, score_eq, rowMax_eq]
  rfl

/-- The reduced sum from the zero pattern is `rowSum`. -/
theorem rowSum_eq (j : S2x16x2048.Idx) : val_main_v11 (F := Ideal) x0 x1 x3 j = rowSum x0 x1 x3 (j 0) (j 1) (j 2) := by
  rw [val_main_v11_apply]
  show Ideal.ofBits .f32 0x00000000#32 + _ = _
  rw [Ideal.ofBits_zero_f32, zero_add]
  unfold rowSum
  refine Finset.sum_congr rfl fun k _ => ?_
  rw [weight_eq]
  exact congrArg (weight x0 x1 x3) (funext fun a => by
    match a with | ⟨0, _⟩ => rfl | ⟨1, _⟩ => rfl | ⟨2, _⟩ => rfl | ⟨3, _⟩ => rfl)

/-- The first result's stage is `attn`. -/
theorem attn_eq : val_main_v14 (F := Ideal) x0 x1 x3 = attn x0 x1 x3 := by
  funext i
  rw [val_main_v14_apply, val_main_v13_apply, val_main_v12_apply, weight_eq, rowSum_eq]
  rfl

/-- The second result's stage is `ctx`. -/
theorem ctx_eq : val_main_v15 (F := Ideal) x0 x1 x2 x3 = ctx x0 x1 x2 x3 := by
  funext i
  rw [val_main_v15_apply, attn_eq]
  unfold ctx
  refine Finset.sum_congr rfl fun k _ => ?_
  have el : lidx_main_v15 i k = ix4 (i 0) (i 1) (i 2) k :=
    funext fun a => by match a with | ⟨0, _⟩ => rfl | ⟨1, _⟩ => rfl | ⟨2, _⟩ => rfl | ⟨3, _⟩ => rfl
  have er : ridx_main_v15 i k = ix4 (i 0) (i 1) k (i 3) :=
    funext fun a => by match a with | ⟨0, _⟩ => rfl | ⟨1, _⟩ => rfl | ⟨2, _⟩ => rfl | ⟨3, _⟩ => rfl
  rw [el, er]
  rfl

end Cert.ReferenceIdeal.RefSoftmax

end
-- ==== Proof.BodySoftmax.lean ====
/-
  The kernel body's two stored values, read at an index on the extended reals.
  At one grid point the body holds a block of 512 query rows, all 2048 key rows, all 2048 value rows and the 512 × 2048
  block of widened mask words.  Suppose the loaded blocks are rows of arrays q, k, v and of a one-bit mask mk: batch b,
  head h, query row `R r` for block row r.  Then the value stored to the attention window at (r, j) is
  `attn q k mk` at (b, h, R r, j), and the value stored to the context window at (r, d) is `ctx q k v mk` at (b, h, R r, d).
  The steps: each matrix product into a zero accumulator is the sum over its one contracted axis; a change of float
  format is the identity; a widened one-bit word is nonzero exactly when the bit is set; a row maximum is the fold of
  `max` over the key axis and a row sum the sum over it; the keepdims column broadcast along a row reads its row's entry.
-/
import proofs.«400006_j15788299780316_3_alg».proof.Proof.Gen.KernelIdeal.Skeleton
import proofs.«400006_j15788299780316_3_alg».proof.Proof.Softmax
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Softmax

/-! ## Words -/

/-- A one-bit word widened to 32 bits differs from zero exactly when the bit is set. -/
theorem ne_zero_widened (b : BitVec 1) : IntOp.cmpi .ne (b.setWidth 32) 0#32 = b := by
  by_cases h : b = 1#1
  · subst h; rfl
  · have := eq_zero_of_ne_one h; subst this; rfl

/-! ## Layout reads -/

/-- A [1,1,a,c] block read as an [a,c] matrix. -/
theorem mat_of_block {α : Type} {a c : Nat} (P : (⟨4, ![1, 1, a, c]⟩ : Shape).Idx → α)
    (h : (⟨4, ![1, 1, a, c]⟩ : Shape).ShapeCasts ⟨2, ![a, c]⟩) (r : Fin a) (d : Fin c) :
    shapeCast (⟨2, ![a, c]⟩ : Shape) P h (ix2 r d) = P (ix4 0 0 r d) := by
  refine shapeCast_apply P h (ix2 r d) (ix4 0 0 r d) ?_
  rw [Shape.rowMajor_val_two, Shape.rowMajor_val_four]
  show (((0 * 1 + 0) * a + r.val) * c + d.val) = r.val * c + d.val
  simp only [Nat.zero_mul, Nat.zero_add, Nat.add_zero]

/-- An [a,c] matrix read as a [1,1,a,c] block. -/
theorem block_of_mat {α : Type} {a c : Nat} (X : (⟨2, ![a, c]⟩ : Shape).Idx → α)
    (h : (⟨2, ![a, c]⟩ : Shape).ShapeCasts ⟨4, ![1, 1, a, c]⟩) (r : Fin a) (d : Fin c) :
    shapeCast (⟨4, ![1, 1, a, c]⟩ : Shape) X h (ix4 0 0 r d) = X (ix2 r d) := by
  refine shapeCast_apply X h (ix4 0 0 r d) (ix2 r d) ?_
  rw [Shape.rowMajor_val_two, Shape.rowMajor_val_four]
  show r.val * c + d.val = (((0 * 1 + 0) * a + r.val) * c + d.val)
  simp only [Nat.zero_mul, Nat.zero_add, Nat.add_zero]

/-- A length-a vector made a column and broadcast along rows of length c reads, at (r, j), entry r. -/
theorem column_along_row {α : Type} {a c : Nat} (x : (⟨1, ![a]⟩ : Shape).Idx → α)
    (h1 : (⟨1, ![a]⟩ : Shape).ShapeCasts ⟨2, ![a, 1]⟩) (h2 : (⟨2, ![a, 1]⟩ : Shape).Broadcasts ⟨2, ![a, c]⟩)
    (ha : a ≠ 1) (r : Fin a) (j : Fin c) :
    broadcastTo (⟨2, ![a, c]⟩ : Shape) (shapeCast (⟨2, ![a, 1]⟩ : Shape) x h1) h2 (ix2 r j) = x (ix1 r) := by
  refine (broadcastTo_apply _ h2 (ix2 r j) (ix2 r (0 : Fin 1)) (fun e => ?_)).trans ?_
  · match e with
    | ⟨0, _⟩ => show r.val = if a = 1 then 0 else r.val; rw [if_neg ha]
    | ⟨1, _⟩ => show 0 = if (1 : Nat) = 1 then 0 else j.val; rw [if_pos rfl]
  · refine shapeCast_apply x h1 (ix2 r (0 : Fin 1)) (ix1 r) ?_
    rw [Shape.rowMajor_val_two, Shape.rowMajor_val_one]
    show r.val = r.val * 1 + 0
    omega

/-! ## The two matrix products -/

theorem lhs_qk_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_qk_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhs_qk_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_qk_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- Query rows against key rows, contracted over the 64 features. -/
theorem qk_apply (A : FVec Ideal S512x64 .bf16) (B : FVec Ideal S2048x64 .bf16) (r : Fin 512) (j : Fin 2048) :
    matmul dot_S512x64_S2048x64_S512x2048_1_1_0_0_n_n none A B (constant S512x2048 .f32 0x00000000#32) (ix2 r j)
      = ∑ d : Fin 64, A (ix2 r d) * B (ix2 j d) := by
  simp only [matmul]
  rw [Ideal.matmul_constant_zero_apply, ← Equiv.sum_comp (contrEquiv1 dot_S512x64_S2048x64_S512x2048_1_1_0_0_n_n 64 rfl rfl).symm]
  refine Finset.sum_congr rfl fun d _ => ?_
  have hk := contrEquiv1_symm_val dot_S512x64_S2048x64_S512x2048_1_1_0_0_n_n 64 rfl rfl d
  have el : dot_S512x64_S2048x64_S512x2048_1_1_0_0_n_n.lhsIdx (ix2 r j) ((contrEquiv1 dot_S512x64_S2048x64_S512x2048_1_1_0_0_n_n 64 rfl rfl).symm d) = ix2 r d := funext fun a => Fin.ext (by
    match a with
    | ⟨0, _⟩ => exact lhs_qk_0 _ _
    | ⟨1, _⟩ => exact (lhs_qk_1 _ _).trans hk)
  have er : dot_S512x64_S2048x64_S512x2048_1_1_0_0_n_n.rhsIdx (ix2 r j) ((contrEquiv1 dot_S512x64_S2048x64_S512x2048_1_1_0_0_n_n 64 rfl rfl).symm d) = ix2 j d := funext fun a => Fin.ext (by
    match a with
    | ⟨0, _⟩ => exact rhs_qk_0 _ _
    | ⟨1, _⟩ => exact (rhs_qk_1 _ _).trans hk)
  rw [el, er]

theorem lhs_pv_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_pv_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs_pv_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs_pv_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Probability rows against value columns, contracted over the 2048 key rows. -/
theorem pv_apply (A : FVec Ideal S512x2048 .bf16) (B : FVec Ideal S2048x64 .bf16) (r : Fin 512) (d : Fin 64) :
    matmul dot_S512x2048_S2048x64_S512x64_1_0_0_1_n_n none A B (constant S512x64 .f32 0x00000000#32) (ix2 r d)
      = ∑ j : Fin 2048, A (ix2 r j) * B (ix2 j d) := by
  simp only [matmul]
  rw [Ideal.matmul_constant_zero_apply, ← Equiv.sum_comp (contrEquiv1 dot_S512x2048_S2048x64_S512x64_1_0_0_1_n_n 2048 rfl rfl).symm]
  refine Finset.sum_congr rfl fun j _ => ?_
  have hk := contrEquiv1_symm_val dot_S512x2048_S2048x64_S512x64_1_0_0_1_n_n 2048 rfl rfl j
  have el : dot_S512x2048_S2048x64_S512x64_1_0_0_1_n_n.lhsIdx (ix2 r d) ((contrEquiv1 dot_S512x2048_S2048x64_S512x64_1_0_0_1_n_n 2048 rfl rfl).symm j) = ix2 r j := funext fun a => Fin.ext (by
    match a with
    | ⟨0, _⟩ => exact lhs_pv_0 _ _
    | ⟨1, _⟩ => exact (lhs_pv_1 _ _).trans hk)
  have er : dot_S512x2048_S2048x64_S512x64_1_0_0_1_n_n.rhsIdx (ix2 r d) ((contrEquiv1 dot_S512x2048_S2048x64_S512x64_1_0_0_1_n_n 2048 rfl rfl).symm j) = ix2 j d := funext fun a => Fin.ext (by
    match a with
    | ⟨0, _⟩ => exact (rhs_pv_0 _ _).trans hk
    | ⟨1, _⟩ => exact rhs_pv_1 _ _)
  rw [el, er]

/-! ## The body's values, named -/

section Block

variable (P0 : Vec Ideal S1x1x512x64 .f32) (P1 : Vec Ideal S1x1x2048x64 .f32) (P2 : Vec Ideal S1x1x512x2048 .i32)
  (P3 : Vec Ideal S1x1x2048x64 .f32)

/-- The block's masked, scaled scores. -/
def sc : FVec Ideal S512x2048 .f32 :=
  select (cmpi .ne (shapeCast S512x2048 P2 shapeCasts_S1x1x512x2048_S512x2048) (constantI S512x2048 32 0#32))
    (broadcast S512x2048 (Scalar.ofBits .f32 0xCE6E6B28#32 : Ideal .f32))
    (mulf (matmul dot_S512x64_S2048x64_S512x2048_1_1_0_0_n_n none
        (truncf .bf16 (shapeCast S512x64 P0 shapeCasts_S1x1x512x64_S512x64) bitsLt_bf16_f32)
        (truncf .bf16 (shapeCast S2048x64 P1 shapeCasts_S1x1x2048x64_S2048x64) bitsLt_bf16_f32)
        (constant S512x2048 .f32 0x00000000#32))
      (broadcast S512x2048 (Scalar.ofBits .f32 0x3E000000#32 : Ideal .f32)))

/-- Each block row's largest score. -/
def mx : FVec Ideal S512 .f32 :=
  multiReduction .maximumf [1] S512 (sc P0 P1 P2) 0xFF800000#32 reduces_S512x2048_S512 (.inl rfl) rfl

/-- The block's unnormalized weights. -/
def ex : FVec Ideal S512x2048 .f32 :=
  exp (subf (sc P0 P1 P2) (broadcastTo S512x2048 (shapeCast S512x1 (mx P0 P1 P2) shapeCasts_S512_S512x1) broadcasts_S512x1_S512x2048))

/-- Each block row's normalizer. -/
def sm : FVec Ideal S512 .f32 :=
  multiReduction .add [1] S512 (ex P0 P1 P2) 0x00000000#32 reduces_S512x2048_S512 (.inl rfl) rfl

/-- The value the body divides out is the weights over their row sums. -/
theorem pay2_eq : k0_pay2 (F := Ideal) P0 P1 P2
    = divf (ex P0 P1 P2) (broadcastTo S512x2048 (shapeCast S512x1 (sm P0 P1 P2) shapeCasts_S512_S512x1) broadcasts_S512x1_S512x2048) := rfl

variable (q k v : QKV.Idx → EReal) (mk : SS.Idx → BitVec 1) (b : Fin 2) (h : Fin 16) (R : Fin 512 → Fin 2048)
variable (hq : ∀ (r : Fin 512) (d : Fin 64), P0 (ix4 0 0 r d) = q (ix4 b h (R r) d))
  (hk : ∀ (j : Fin 2048) (d : Fin 64), P1 (ix4 0 0 j d) = k (ix4 b h j d))
  (hm : ∀ (r : Fin 512) (j : Fin 2048), P2 (ix4 0 0 r j) = (mk (ix4 b h (R r) j)).setWidth 32)
  (hv : ∀ (j : Fin 2048) (d : Fin 64), P3 (ix4 0 0 j d) = v (ix4 b h j d))

include hq hk hm in
theorem sc_apply (r : Fin 512) (j : Fin 2048) : sc P0 P1 P2 (ix2 r j) = score q k mk (ix4 b h (R r) j) := by
  have e1 : shapeCast S512x2048 P2 shapeCasts_S1x1x512x2048_S512x2048 (ix2 r j) = (mk (ix4 b h (R r) j)).setWidth 32 :=
    (mat_of_block P2 _ r j).trans (hm r j)
  have e2 : matmul (F := Ideal) dot_S512x64_S2048x64_S512x2048_1_1_0_0_n_n none
        (truncf .bf16 (shapeCast S512x64 P0 shapeCasts_S1x1x512x64_S512x64) bitsLt_bf16_f32)
        (truncf .bf16 (shapeCast S2048x64 P1 shapeCasts_S1x1x2048x64_S2048x64) bitsLt_bf16_f32)
        (constant S512x2048 .f32 0x00000000#32) (ix2 r j)
      = ∑ d : Fin 64, q (ix4 b h (R r) d) * k (ix4 b h j d) := by
    rw [qk_apply]
    refine Finset.sum_congr rfl fun d _ => ?_
    show shapeCast S512x64 P0 shapeCasts_S1x1x512x64_S512x64 (ix2 r d) * shapeCast S2048x64 P1 shapeCasts_S1x1x2048x64_S2048x64 (ix2 j d) = _
    rw [mat_of_block P0 _ r d, mat_of_block P1 _ j d, hq, hk]
  unfold sc score
  rw [select_apply, mulf_apply, e2]
  show Scalar.select (IntOp.cmpi .ne (shapeCast S512x2048 P2 shapeCasts_S1x1x512x2048_S512x2048 (ix2 r j)) 0#32) _ _ = _
  rw [e1, ne_zero_widened]
  rfl

include hq hk hm in
theorem mx_apply (r : Fin 512) : mx P0 P1 P2 (ix1 r) = rowMax q k mk b h (R r) := by
  unfold mx rowMax
  refine (Ideal.multiReduction_maximumf_single (sc P0 P1 P2) _ reduces_S512x2048_S512 _ _ (ix1 r)).trans ?_
  have e : (sc P0 P1 P2 ∘ reduces_S512x2048_S512.lift (ix1 r)) = fun j : Fin 2048 => score q k mk (ix4 b h (R r) j) :=
    funext fun j => by
      rw [← sc_apply P0 P1 P2 q k mk b h R hq hk hm r j]
      exact congrArg (sc P0 P1 P2) (funext fun a => Fin.ext (by match a with | ⟨0, _⟩ => rfl | ⟨1, _⟩ => rfl))
  rw [e]
  rfl

include hq hk hm in
theorem ex_apply (r : Fin 512) (j : Fin 2048) : ex P0 P1 P2 (ix2 r j) = weight q k mk (ix4 b h (R r) j) := by
  show Ideal.exp (sc P0 P1 P2 (ix2 r j) - broadcastTo S512x2048 (shapeCast S512x1 (mx P0 P1 P2) shapeCasts_S512_S512x1) broadcasts_S512x1_S512x2048 (ix2 r j)) = _
  rw [sc_apply P0 P1 P2 q k mk b h R hq hk hm, column_along_row _ _ _ (by decide) r j, mx_apply P0 P1 P2 q k mk b h R hq hk hm]
  rfl

include hq hk hm in
theorem sm_apply (r : Fin 512) : sm P0 P1 P2 (ix1 r) = rowSum q k mk b h (R r) := by
  unfold sm rowSum
  refine (Ideal.multiReduction_add_single (ex P0 P1 P2) _ reduces_S512x2048_S512 _ _ (ix1 r)).trans ?_
  refine Finset.sum_congr rfl fun j _ => ?_
  rw [← ex_apply P0 P1 P2 q k mk b h R hq hk hm r j]
  exact congrArg (ex P0 P1 P2) (funext fun a => Fin.ext (by match a with | ⟨0, _⟩ => rfl | ⟨1, _⟩ => rfl))

include hq hk hm in
/-- The value stored to the attention window. -/
theorem pay2_apply (r : Fin 512) (j : Fin 2048) : k0_pay2 (F := Ideal) P0 P1 P2 (ix2 r j) = attn q k mk (ix4 b h (R r) j) := by
  rw [pay2_eq]
  show Ideal.div (ex P0 P1 P2 (ix2 r j)) (broadcastTo S512x2048 (shapeCast S512x1 (sm P0 P1 P2) shapeCasts_S512_S512x1) broadcasts_S512x1_S512x2048 (ix2 r j)) = _
  rw [ex_apply P0 P1 P2 q k mk b h R hq hk hm, column_along_row _ _ _ (by decide) r j, sm_apply P0 P1 P2 q k mk b h R hq hk hm]
  rfl

include hq hk hm hv in
/-- The value stored to the context window. -/
theorem pay1_apply (r : Fin 512) (d : Fin 64) :
    k0_pay1 (F := Ideal) (k0_pay4 P3) (k0_pay5 P0 P1 P2) (ix4 0 0 r d) = ctx q k v mk (ix4 b h (R r) d) := by
  show shapeCast S1x1x512x64 (matmul dot_S512x2048_S2048x64_S512x64_1_0_0_1_n_n none (k0_pay5 P0 P1 P2) (k0_pay4 P3) (constant S512x64 .f32 0x00000000#32)) shapeCasts_S512x64_S1x1x512x64 (ix4 0 0 r d) = _
  rw [block_of_mat _ _ r d, pv_apply]
  unfold ctx
  refine Finset.sum_congr rfl fun j _ => ?_
  show k0_pay2 (F := Ideal) P0 P1 P2 (ix2 r j) * shapeCast S2048x64 P3 shapeCasts_S1x1x2048x64_S2048x64 (ix2 j d) = _
  rw [pay2_apply P0 P1 P2 q k mk b h R hq hk hm, mat_of_block P3 _ j d, hv]

end Block

end Cert.KernelIdeal.Body

end
-- ==== Proof.AttentionArrays.lean ====
/-
  From blocks to arrays.  The grid has 2 × 16 × 4 points; point (b, h, s) stages query rows 512 s … 512 s + 511 of
  batch b, head h, together with that batch and head's 2048 key rows, 2048 value rows and the matching 512 × 2048 block
  of the widened mask, and writes back the same rows of the two results.  The mask array the region stages is the host's
  widening of the one-bit mask to 32-bit words.  With the body's stored values read at an index (BodySoftmax.lean), what
  point t writes back to each result is block t of `attn`, respectively `ctx`, of the argument arrays; the blocks tile
  both result arrays, so after the run the arrays are `attn` and `ctx` of the arguments.
-/
import proofs.«400006_j15788299780316_3_alg».proof.Proof.Gen.KernelIdeal.Value
import proofs.«400006_j15788299780316_3_alg».proof.Proof.BodySoftmax
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Arrays

open Cert.KernelIdeal Cert.KernelIdeal.Gen Cert.KernelIdeal.Value Cert.KernelIdeal.Body
open Idealize.ShloMosaic Idealize.ShloMosaic.TcCoe Idealize.SL.Sem Idealize.ShloMosaic.ValueIdx Cert.Softmax
open Idealize.ShloMosaic.Pipeline (Dat)

variable (m : (ℓ : Loc nD τ sig) → Buf (Elt Ideal) ℓ) (ρ : Dev nD → PrngReg)

theorem hz : (![0, 0, 0, 0] : Fin 4 → Nat) = fun _ => 0 := funext fun a => by fin_cases a <;> rfl

/-- The mask array the region stages: each bit of the argument widened to a 32-bit word. -/
theorem widened_mask (c : Dev nD) :
    (V m c main_v0 : S2x16x2048x2048.Idx → BitVec 32) = extui 32 (m ((c : Thread nD τ).loc main_arg3)) natLt_1_32 := by
  dsimp only [Gen.V, Gen.hostOps0]
  after_results

/-- The printed index maps over the grid: the attention window's block index is (b, h, s, 0) with b < 2, h < 16, s < 4;
    the query, mask and context windows move with it, the key and value windows with its first two coordinates. -/
theorem grid_facts : ∀ t : Fin cfg0.N,
    win0_4.index t (0 : Fin 4) < 2 ∧ win0_4.index t (1 : Fin 4) < 16 ∧ win0_4.index t (2 : Fin 4) < 4 ∧ win0_4.index t (3 : Fin 4) = 0
    ∧ win0_0.index t (0 : Fin 4) = win0_4.index t (0 : Fin 4) ∧ win0_0.index t (1 : Fin 4) = win0_4.index t (1 : Fin 4)
    ∧ win0_0.index t (2 : Fin 4) = win0_4.index t (2 : Fin 4) ∧ win0_0.index t (3 : Fin 4) = 0
    ∧ win0_1.index t (0 : Fin 4) = win0_4.index t (0 : Fin 4) ∧ win0_1.index t (1 : Fin 4) = win0_4.index t (1 : Fin 4)
    ∧ win0_1.index t (2 : Fin 4) = 0 ∧ win0_1.index t (3 : Fin 4) = 0
    ∧ win0_2.index t (0 : Fin 4) = win0_4.index t (0 : Fin 4) ∧ win0_2.index t (1 : Fin 4) = win0_4.index t (1 : Fin 4)
    ∧ win0_2.index t (2 : Fin 4) = 0 ∧ win0_2.index t (3 : Fin 4) = 0
    ∧ win0_3.index t (0 : Fin 4) = win0_4.index t (0 : Fin 4) ∧ win0_3.index t (1 : Fin 4) = win0_4.index t (1 : Fin 4)
    ∧ win0_3.index t (2 : Fin 4) = win0_4.index t (2 : Fin 4) ∧ win0_3.index t (3 : Fin 4) = 0
    ∧ win0_5.index t (0 : Fin 4) = win0_4.index t (0 : Fin 4) ∧ win0_5.index t (1 : Fin 4) = win0_4.index t (1 : Fin 4)
    ∧ win0_5.index t (2 : Fin 4) = win0_4.index t (2 : Fin 4) ∧ win0_5.index t (3 : Fin 4) = 0 :=
  (by decide +kernel : ∀ t : Fin grid0.N, _)

/-- Every (b, h, s) is some point's. -/
theorem grid_onto : ∀ (q0 : Fin 2) (q1 : Fin 16) (q2 : Fin 4), ∃ t : Fin cfg0.N,
    win0_4.index t (0 : Fin 4) = q0.val ∧ win0_4.index t (1 : Fin 4) = q1.val ∧ win0_4.index t (2 : Fin 4) = q2.val :=
  (by decide +kernel : ∀ (q0 : Fin 2) (q1 : Fin 16) (q2 : Fin 4), ∃ t : Fin grid0.N,
    win0_4.index t (0 : Fin 4) = q0.val ∧ win0_4.index t (1 : Fin 4) = q1.val ∧ win0_4.index t (2 : Fin 4) = q2.val)

/-- A block index with unit leading axes is (0, 0, r, j). -/
theorem eq_block {a c : Nat} (y : (⟨4, ![1, 1, a, c]⟩ : Shape).Idx) : y = ix4 0 0 (y 2) (y 3) := by
  funext e
  match e with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
  | ⟨2, _⟩ => rfl
  | ⟨3, _⟩ => rfl

section Point

variable (c : Dev nD) (t : Fin cfg0.N)

/-- The point's batch, head and first query row. -/
def bOf : Fin 2 := ⟨win0_4.index t (0 : Fin 4), (grid_facts t).1⟩
def hOf : Fin 16 := ⟨win0_4.index t (1 : Fin 4), (grid_facts t).2.1⟩
def rowOf (r : Fin 512) : Fin 2048 := ⟨win0_4.index t (2 : Fin 4) * 512 + r.val, by have := (grid_facts t).2.2.1; have := r.isLt; omega⟩

/-- The query block's rows. -/
theorem qblk (r : Fin 512) (d : Fin 64) :
    (iblk m c 0 t : Vec Ideal S1x1x512x64 .f32) (ix4 0 0 r d) = V m c main_arg0 (ix4 (bOf t) (hOf t) (rowOf t r) d) := by
  obtain ⟨-, -, -, -, e0, e1, e2, e3, -⟩ := grid_facts t
  show V m c main_arg0 (((cfg0.win 0).blk t).view.emb (ix4 0 0 r d)) = _
  refine congrArg (V m c main_arg0) (funext fun a => Fin.ext ?_)
  match a with
  | ⟨0, _⟩ => show win0_0.index t (0 : Fin 4) * 1 + 1 * 0 = win0_4.index t (0 : Fin 4); omega
  | ⟨1, _⟩ => show win0_0.index t (1 : Fin 4) * 1 + 1 * 0 = win0_4.index t (1 : Fin 4); omega
  | ⟨2, _⟩ => show win0_0.index t (2 : Fin 4) * 512 + 1 * r.val = win0_4.index t (2 : Fin 4) * 512 + r.val; omega
  | ⟨3, _⟩ => show win0_0.index t (3 : Fin 4) * 64 + 1 * d.val = d.val; omega

/-- The key block's rows: all of the batch and head's key rows. -/
theorem kblk (j : Fin 2048) (d : Fin 64) :
    (iblk m c 1 t : Vec Ideal S1x1x2048x64 .f32) (ix4 0 0 j d) = V m c main_arg1 (ix4 (bOf t) (hOf t) j d) := by
  obtain ⟨-, -, -, -, -, -, -, -, e0, e1, e2, e3, -⟩ := grid_facts t
  show V m c main_arg1 (((cfg0.win 1).blk t).view.emb (ix4 0 0 j d)) = _
  refine congrArg (V m c main_arg1) (funext fun a => Fin.ext ?_)
  match a with
  | ⟨0, _⟩ => show win0_1.index t (0 : Fin 4) * 1 + 1 * 0 = win0_4.index t (0 : Fin 4); omega
  | ⟨1, _⟩ => show win0_1.index t (1 : Fin 4) * 1 + 1 * 0 = win0_4.index t (1 : Fin 4); omega
  | ⟨2, _⟩ => show win0_1.index t (2 : Fin 4) * 2048 + 1 * j.val = j.val; omega
  | ⟨3, _⟩ => show win0_1.index t (3 : Fin 4) * 64 + 1 * d.val = d.val; omega

/-- The value block's rows: all of the batch and head's value rows. -/
theorem vblk (j : Fin 2048) (d : Fin 64) :
    (iblk m c 2 t : Vec Ideal S1x1x2048x64 .f32) (ix4 0 0 j d) = V m c main_arg2 (ix4 (bOf t) (hOf t) j d) := by
  obtain ⟨-, -, -, -, -, -, -, -, -, -, -, -, e0, e1, e2, e3, -⟩ := grid_facts t
  show V m c main_arg2 (((cfg0.win 2).blk t).view.emb (ix4 0 0 j d)) = _
  refine congrArg (V m c main_arg2) (funext fun a => Fin.ext ?_)
  match a with
  | ⟨0, _⟩ => show win0_2.index t (0 : Fin 4) * 1 + 1 * 0 = win0_4.index t (0 : Fin 4); omega
  | ⟨1, _⟩ => show win0_2.index t (1 : Fin 4) * 1 + 1 * 0 = win0_4.index t (1 : Fin 4); omega
  | ⟨2, _⟩ => show win0_2.index t (2 : Fin 4) * 2048 + 1 * j.val = j.val; omega
  | ⟨3, _⟩ => show win0_2.index t (3 : Fin 4) * 64 + 1 * d.val = d.val; omega

/-- The mask block's words: the argument's bits, widened. -/
theorem mblk (r : Fin 512) (j : Fin 2048) :
    (iblk m c 3 t : Vec Ideal S1x1x512x2048 .i32) (ix4 0 0 r j)
      = ((m ((c : Thread nD τ).loc main_arg3) : S2x16x2048x2048.Idx → BitVec 1) (ix4 (bOf t) (hOf t) (rowOf t r) j)).setWidth 32 := by
  obtain ⟨-, -, -, -, -, -, -, -, -, -, -, -, -, -, -, -, e0, e1, e2, e3, -⟩ := grid_facts t
  show (V m c main_v0 : S2x16x2048x2048.Idx → BitVec 32) (((cfg0.win 3).blk t).view.emb (ix4 0 0 r j)) = _
  rw [widened_mask]
  show ((m ((c : Thread nD τ).loc main_arg3) : S2x16x2048x2048.Idx → BitVec 1) _).setWidth 32 = _
  refine congrArg (fun x => ((m ((c : Thread nD τ).loc main_arg3) : S2x16x2048x2048.Idx → BitVec 1) x).setWidth 32) (funext fun a => Fin.ext ?_)
  match a with
  | ⟨0, _⟩ => show win0_3.index t (0 : Fin 4) * 1 + 1 * 0 = win0_4.index t (0 : Fin 4); omega
  | ⟨1, _⟩ => show win0_3.index t (1 : Fin 4) * 1 + 1 * 0 = win0_4.index t (1 : Fin 4); omega
  | ⟨2, _⟩ => show win0_3.index t (2 : Fin 4) * 512 + 1 * r.val = win0_4.index t (2 : Fin 4) * 512 + r.val; omega
  | ⟨3, _⟩ => show win0_3.index t (3 : Fin 4) * 2048 + 1 * j.val = j.val; omega

/-- The attention probabilities of the argument arrays as the region finds them. -/
abbrev attnOf : S2x16x2048x2048.Idx → EReal :=
  attn (V m c main_arg0) (V m c main_arg1) (m ((c : Thread nD τ).loc main_arg3))

/-- The context of the argument arrays as the region finds them. -/
abbrev ctxOf : S2x16x2048x64.Idx → EReal :=
  ctx (V m c main_arg0) (V m c main_arg1) (V m c main_arg2) (m ((c : Thread nD τ).loc main_arg3))

/-- What point t writes back to the attention result is block t of `attnOf`. -/
theorem attn_block :
    (dats m 0 c).flushed 4 t = ((cfg0.win 4).blk t).view.read (Elt Ideal) (attnOf m c) := by
  rw [Value.flushed4]
  unfold out0_4
  rw [View.canon_unit_zero hz]
  simp only [View.ld_unit_zero (S := S1x1x512x64) hz, View.ld_unit_zero (S := S1x1x2048x64) hz, View.ld_unit_zero (S := S1x1x512x2048) hz]
  funext y
  obtain ⟨r, j, rfl⟩ : ∃ (r : Fin 512) (j : Fin 2048), y = ix4 0 0 r j := ⟨y 2, y 3, eq_block y⟩
  show shapeCast S1x1x512x2048 (k0_pay2 (F := Ideal) (iblk m c 0 t) (iblk m c 1 t) (iblk m c 3 t)) shapeCasts_S512x2048_S1x1x512x2048 (ix4 0 0 r j)
    = attnOf m c (((cfg0.win 4).blk t).view.emb (ix4 0 0 r j))
  refine (block_of_mat _ _ r j).trans ?_
  refine (pay2_apply (iblk m c 0 t) (iblk m c 1 t) (iblk m c 3 t) (V m c main_arg0) (V m c main_arg1) (m ((c : Thread nD τ).loc main_arg3))
    (bOf t) (hOf t) (rowOf t) (qblk m c t) (kblk m c t) (mblk m c t) r j).trans ?_
  refine congrArg (attnOf m c) (funext fun a => Fin.ext ?_)
  match a with
  | ⟨0, _⟩ => show win0_4.index t (0 : Fin 4) = win0_4.index t (0 : Fin 4) * 1 + 1 * 0; omega
  | ⟨1, _⟩ => show win0_4.index t (1 : Fin 4) = win0_4.index t (1 : Fin 4) * 1 + 1 * 0; omega
  | ⟨2, _⟩ => show win0_4.index t (2 : Fin 4) * 512 + r.val = win0_4.index t (2 : Fin 4) * 512 + 1 * r.val; omega
  | ⟨3, _⟩ => show j.val = win0_4.index t (3 : Fin 4) * 2048 + 1 * j.val; have := (grid_facts t).2.2.2.1; omega

/-- What point t writes back to the context result is block t of `ctxOf`. -/
theorem ctx_block :
    (dats m 0 c).flushed 5 t = ((cfg0.win 5).blk t).view.read (Elt Ideal) (ctxOf m c) := by
  rw [Value.flushed5]
  unfold out0_5
  rw [View.canon_unit_zero hz]
  simp only [View.ld_unit_zero (S := S1x1x512x64) hz, View.ld_unit_zero (S := S1x1x2048x64) hz, View.ld_unit_zero (S := S1x1x512x2048) hz]
  obtain ⟨-, -, -, -, -, -, -, -, -, -, -, -, -, -, -, -, -, -, -, -, e0, e1, e2, e3⟩ := grid_facts t
  funext y
  obtain ⟨r, d, rfl⟩ : ∃ (r : Fin 512) (d : Fin 64), y = ix4 0 0 r d := ⟨y 2, y 3, eq_block y⟩
  show k0_pay1 (F := Ideal) (k0_pay4 (iblk m c 2 t)) (k0_pay5 (iblk m c 0 t) (iblk m c 1 t) (iblk m c 3 t)) (ix4 0 0 r d)
    = ctxOf m c (((cfg0.win 5).blk t).view.emb (ix4 0 0 r d))
  refine (pay1_apply (iblk m c 0 t) (iblk m c 1 t) (iblk m c 3 t) (iblk m c 2 t) (V m c main_arg0) (V m c main_arg1) (V m c main_arg2)
    (m ((c : Thread nD τ).loc main_arg3)) (bOf t) (hOf t) (rowOf t) (qblk m c t) (kblk m c t) (mblk m c t) (vblk m c t) r d).trans ?_
  refine congrArg (ctxOf m c) (funext fun a => Fin.ext ?_)
  match a with
  | ⟨0, _⟩ => show win0_4.index t (0 : Fin 4) = win0_5.index t (0 : Fin 4) * 1 + 1 * 0; omega
  | ⟨1, _⟩ => show win0_4.index t (1 : Fin 4) = win0_5.index t (1 : Fin 4) * 1 + 1 * 0; omega
  | ⟨2, _⟩ => show win0_4.index t (2 : Fin 4) * 512 + r.val = win0_5.index t (2 : Fin 4) * 512 + 1 * r.val; omega
  | ⟨3, _⟩ => show d.val = win0_5.index t (3 : Fin 4) * 64 + 1 * d.val; omega

end Point

/-! ## The blocks tile the result arrays -/

/-- An index of the attention result is in point t's block iff each coordinate is in the block's range on its axis. -/
theorem mem_attn_blk (t : Fin cfg0.N) (i : S2x16x2048x2048.Idx) :
    i ∈ ((cfg0.win 4).blk t).view.set ↔ ∀ a : Fin 4, win0_4.index t a * S1x1x512x2048.size a ≤ (i a).val ∧ (i a).val < win0_4.index t a * S1x1x512x2048.size a + S1x1x512x2048.size a := by
  show i ∈ ((View.whole main_v1_0).slice (win0_4.rect t)).set ↔ _
  rw [View.set_slice_whole, Rect.mem_set_unit]
  exact Iff.rfl

/-- The same for the context result. -/
theorem mem_ctx_blk (t : Fin cfg0.N) (i : S2x16x2048x64.Idx) :
    i ∈ ((cfg0.win 5).blk t).view.set ↔ ∀ a : Fin 4, win0_5.index t a * S1x1x512x64.size a ≤ (i a).val ∧ (i a).val < win0_5.index t a * S1x1x512x64.size a + S1x1x512x64.size a := by
  show i ∈ ((View.whole main_v1_1).slice (win0_5.rect t)).set ↔ _
  rw [View.set_slice_whole, Rect.mem_set_unit]
  exact Iff.rfl

/-- Query row i of batch b, head h lies in the block of point (b, h, i / 512). -/
theorem attn_cover (i : S2x16x2048x2048.Idx) :
    ∃ t : Fin cfg0.N, (cfg0.win 4).flush t = true ∧ i ∈ ((cfg0.win 4).blk t).view.set := by
  have h0 : (i 0).val < 2 := (i 0).isLt
  have h1 : (i 1).val < 16 := (i 1).isLt
  have h2 : (i 2).val < 2048 := (i 2).isLt
  have h3 : (i 3).val < 2048 := (i 3).isLt
  obtain ⟨t, q0, q1, q2⟩ := grid_onto ⟨(i 0).val, h0⟩ ⟨(i 1).val, h1⟩ ⟨(i 2).val / 512, by omega⟩
  have q0' : win0_4.index t (0 : Fin 4) = (i 0).val := q0
  have q1' : win0_4.index t (1 : Fin 4) = (i 1).val := q1
  have q2' : win0_4.index t (2 : Fin 4) = (i 2).val / 512 := q2
  have q3' : win0_4.index t (3 : Fin 4) = 0 := (grid_facts t).2.2.2.1
  refine ⟨t, flush0_4 t, ?_⟩
  rw [mem_attn_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 2048 ≤ (i 3).val ∧ (i 3).val < win0_4.index t (3 : Fin 4) * 2048 + 2048; omega

/-- The same for the context result. -/
theorem ctx_cover (i : S2x16x2048x64.Idx) :
    ∃ t : Fin cfg0.N, (cfg0.win 5).flush t = true ∧ i ∈ ((cfg0.win 5).blk t).view.set := by
  have h0 : (i 0).val < 2 := (i 0).isLt
  have h1 : (i 1).val < 16 := (i 1).isLt
  have h2 : (i 2).val < 2048 := (i 2).isLt
  have h3 : (i 3).val < 64 := (i 3).isLt
  obtain ⟨t, q0, q1, q2⟩ := grid_onto ⟨(i 0).val, h0⟩ ⟨(i 1).val, h1⟩ ⟨(i 2).val / 512, by omega⟩
  obtain ⟨-, -, -, -, -, -, -, -, -, -, -, -, -, -, -, -, -, -, -, -, e0, e1, e2, e3⟩ := grid_facts t
  have q0' : win0_4.index t (0 : Fin 4) = (i 0).val := q0
  have q1' : win0_4.index t (1 : Fin 4) = (i 1).val := q1
  have q2' : win0_4.index t (2 : Fin 4) = (i 2).val / 512 := q2
  refine ⟨t, flush0_5 t, ?_⟩
  rw [mem_ctx_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 64 ≤ (i 3).val ∧ (i 3).val < win0_5.index t (3 : Fin 4) * 64 + 64; omega

/-! ## The arrays after the run -/

/-- The attention result after the run. -/
theorem attn_final (c : Dev nD) : (dats m 0 c).arrAt 4 cfg0.N = attnOf m c :=
  (dats m 0 c).arrAt_eq_of_cover 4 (attnOf m c) (fun t _ => attn_block m c t) attn_cover

/-- The context result after the run. -/
theorem ctx_final (c : Dev nD) : (dats m 0 c).arrAt 5 cfg0.N = ctxOf m c :=
  (dats m 0 c).arrAt_eq_of_cover 5 (ctxOf m c) (fun t _ => ctx_block m c t) ctx_cover

/-- The kernel's run, read: the two results at `attn` and `ctx` of the arguments as launched, the arguments unchanged. -/
theorem run : θ_run defs (onTc (τ := τ) (main (F := Ideal))) ⟨m, fun _ => 0, ρ⟩ fun r => ∀ c : Dev nD,
      r.2.mem ((c : Thread nD τ).loc main_v1_0)
        = attn (m ((c : Thread nD τ).loc main_arg0)) (m ((c : Thread nD τ).loc main_arg1)) (m ((c : Thread nD τ).loc main_arg3))
      ∧ r.2.mem ((c : Thread nD τ).loc main_v1_1)
        = ctx (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨(h c).1.trans ((attn_final m c).trans (by
          show attn (V m c main_arg0) (V m c main_arg1) _ = _
          rw [V_main_arg0, V_main_arg1])),
        (h c).2.1.trans ((ctx_final m c).trans (by
          show ctx (V m c main_arg0) (V m c main_arg1) (V m c main_arg2) _ = _
          rw [V_main_arg0, V_main_arg1, V_main_arg2])),
        (h c).2.2⟩)
    (Value.run_blocks m ρ)

end Cert.KernelIdeal.Arrays

end
-- ==== Proof.lean ====
/- Masked scaled-dot-product attention over q, k, v of shape [2, 16, 2048, 64] and a boolean mask of shape
   [2, 16, 2048, 2048]: the kernel, one grid point per block of 512 query rows of a batch and head, against the plain
   reference.  Both compute, on the extended reals, for every batch, head and query row: the scores (q · kᵀ) · 0.125 with
   the fill value written where the mask is set, the row's maximum, exp (score − maximum), the row's sum, their quotient
   (the first result) and the quotient's product with v (the second result).  The two texts differ only in ways that
   vanish at exact arithmetic: the kernel narrows its matmul operands to bf16 (a change of format is the identity),
   accumulates each product into a zero splat (the plain sum over the contracted axis), reads the mask through a widening
   to 32-bit words tested against zero (nonzero exactly where the bit is set), and works block by block; the reference
   takes one more maximum with the maximum's own starting value (absorbed by the fold).  No step needs the inputs finite.
   Softmax.lean states the functions; RefSoftmax.lean reads the reference's stages as them; BodySoftmax.lean reads the
   kernel body's stored values at an index; AttentionArrays.lean goes from the written-back blocks to the result arrays.
   The ideal pass rewrote nothing, so the preservation conjunct is `True`. -/
import proofs.«400006_j15788299780316_3_alg».proof.Defs
import proofs.«400006_j15788299780316_3_alg».proof.Proof.Gen.Kernel
import proofs.«400006_j15788299780316_3_alg».proof.Proof.Gen.Kernel.Skeleton
import proofs.«400006_j15788299780316_3_alg».proof.Proof.Gen.Kernel.Launch
import proofs.«400006_j15788299780316_3_alg».proof.Proof.Gen.Kernel.Points
import proofs.«400006_j15788299780316_3_alg».proof.Proof.Gen.Kernel.Frame
import proofs.«400006_j15788299780316_3_alg».proof.Proof.Gen.KernelIdeal
import proofs.«400006_j15788299780316_3_alg».proof.Proof.Gen.KernelIdeal.Skeleton
import proofs.«400006_j15788299780316_3_alg».proof.Proof.Gen.KernelIdeal.Launch
import proofs.«400006_j15788299780316_3_alg».proof.Proof.Gen.KernelIdeal.Points
import proofs.«400006_j15788299780316_3_alg».proof.Proof.Gen.KernelIdeal.Frame
import proofs.«400006_j15788299780316_3_alg».proof.Proof.Gen.ReferenceIdeal
import proofs.«400006_j15788299780316_3_alg».proof.Proof.Gen.Pre_finite_inputs
import proofs.«400006_j15788299780316_3_alg».proof.Proof.Gen.KernelIdeal.Value
import proofs.«400006_j15788299780316_3_alg».proof.Proof.Gen.ReferenceIdeal.Run
import proofs.«400006_j15788299780316_3_alg».proof.Proof.Gen.ReferenceIdeal.Read
import proofs.«400006_j15788299780316_3_alg».proof.Proof.Softmax
import proofs.«400006_j15788299780316_3_alg».proof.Proof.RefSoftmax
import proofs.«400006_j15788299780316_3_alg».proof.Proof.BodySoftmax
import proofs.«400006_j15788299780316_3_alg».proof.Proof.AttentionArrays
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- On the extended reals, from memories agreeing on the four arguments, the kernel's two result arrays end at `attn` and
    `ctx` of the arguments (the blocks tile the arrays) and the reference's two results are the same functions of them. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v14_eq, Cert.ReferenceIdeal.RefSoftmax.attn_eq,
      (hagree c).1, (hagree c).2.1, (hagree c).2.2.2]
  · rw [Cert.ReferenceIdeal.Read.val_main_v15_eq, Cert.ReferenceIdeal.RefSoftmax.ctx_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
